-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S4096x4096 : Shape := ⟨2, ![4096, 4096]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S1x4096x4096 : Shape := ⟨3, ![1, 4096, 4096]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  bcast_S_S8x4096x1 : S_.BroadcastsInDim S8x4096x1 (![] : Fin 0 → Fin S8x4096x1.rank)
  reducesTo_S8x4096x1_S_d0_1_2 : S8x4096x1.ReducesTo [0, 1, 2] S_
  dot_S8x4096x64_S8x4096x64_S8x4096x4096_2_2_1_1_0_0_wf : DotDims.WF S8x4096x64 S8x4096x64 S8x4096x4096 [2] [2] [1] [1] [0] [0]

variable [Facts]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def fn_part2 {F : FTy → Type} [FloatOps F] (main_v18 : IVec S_ 1) (main_v35 : FVec F S8x4096x4096 .f32) : IVec S_ 1 :=
  let main_cst_10 : FVec F S_ .f32 := constant S_ .f32 0x00000000#32
  let main_v36 : FVec F S8x4096 .f32 := (fun x v => Host.reduceAdd x v reducesTo_S8x4096x4096_S8x4096_d2 h_S_) main_v35 main_cst_10
  let main_v37 : FVec F S8x4096x1 .f32 := broadcastInDim S8x4096x1 ![0, 1] bcast_S8x4096_S8x4096x1_0_1 main_v36
  let main_cst_11 : FVec F S_ .f32 := constant S_ .f32 0x00000000#32
  let main_v38 : FVec F S8x4096x1 .f32 := broadcastInDim S8x4096x1 ![] bcast_S_S8x4096x1 main_cst_11
  let main_v39 : IVec S8x4096x1 1 := cmpf .une main_v37 main_v38
  let main_c_12 : IVec S_ 1 := constantI S_ 1 1#1
  let main_v40 : IVec S_ 1 := (fun x v => Host.reduce IntOp.andi x v reducesTo_S8x4096x1_S_d0_1_2 h_S_) main_v39 main_c_12
  let main_v41 : IVec S_ 1 := andi main_v18 main_v40
  main_v41

def fn_part1 {F : FTy → Type} [FloatOps F] (main_arg0 : FVec F S8x4096x64 .f32) (main_arg1 : FVec F S8x4096x64 .f32) (main_arg3 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S8x4096x4096 .f32 := (fun l r => Host.dotGeneral dot_S8x4096x64_S8x4096x64_S8x4096x4096_2_2_1_1_0_0 none l r) main_arg0 main_arg1
  let main_cst_6 : FVec F S_ .f32 := constant S_ .f32 0x3E000000#32
  let main_v20 : FVec F S8x4096x4096 .f32 := broadcastInDim S8x4096x4096 ![] bcast_S_S8x4096x4096 main_cst_6
  let main_v21 : FVec F S8x4096x4096 .f32 := mulf main_v19 main_v20
  let main_cst_7 : FVec F S_ .f32 := constant S_ .f32 0xFF800000#32
  let main_v22 : FVec F S8x4096 .f32 := (fun x v => Host.reduce FloatOps.maximumf x v reducesTo_S8x4096x4096_S8x4096_d2 h_S_) main_v21 main_cst_7
  let main_cst_8 : FVec F S_ .f32 := constant S_ .f32 0xFF800000#32
  let main_v23 : FVec F S8x4096 .f32 := broadcastInDim S8x4096 ![] bcast_S_S8x4096 main_cst_8
  let main_v24 : FVec F S8x4096 .f32 := maximumf main_v23 main_v22
  let main_v25 : FVec F S8x4096x1 .f32 := broadcastInDim S8x4096x1 ![0, 1] bcast_S8x4096_S8x4096x1_0_1 main_v24
  let main_v26 : FVec F S8x4096x4096 .f32 := broadcastInDim S8x4096x4096 ![0, 1, 2] bcast_S8x4096x1_S8x4096x4096_0_1_2 main_v25
  let main_v27 : FVec F S8x4096x4096 .f32 := subf main_v21 main_v26
  let main_v28 : FVec F S8x4096x4096 .f32 := Host.exp main_v27
  let main_cst_9 : FVec F S_ .f32 := constant S_ .f32 0x00000000#32
  let main_v29 : FVec F S8x4096 .f32 := (fun x v => Host.reduceAdd x v reducesTo_S8x4096x4096_S8x4096_d2 h_S_) main_v28 main_cst_9
  let main_v30 : FVec F S8x4096x1 .f32 := broadcastInDim S8x4096x1 ![0, 1] bcast_S8x4096_S8x4096x1_0_1 main_v29
  let main_v31 : FVec F S8x4096x4096 .f32 := broadcastInDim S8x4096x4096 ![0, 1, 2] bcast_S8x4096x1_S8x4096x4096_0_1_2 main_v30
  let main_v32 : FVec F S8x4096x4096 .f32 := Host.divf main_v28 main_v31
  let main_v33 : FVec F S1x4096x4096 .f32 := broadcastInDim S1x4096x4096 ![1, 2] bcast_S4096x4096_S1x4096x4096_1_2 main_arg3
  let main_v34 : FVec F S8x4096x4096 .f32 := broadcastInDim S8x4096x4096 ![0, 1, 2] bcast_S1x4096x4096_S8x4096x4096_0_1_2 main_v33
  let main_v35 : FVec F S8x4096x4096 .f32 := mulf main_v32 main_v34
  fn_part2 (F := F) main_v18 main_v35

def fn {F : FTy → Type} [FloatOps F] (main_arg0 : FVec F S8x4096x64 .f32) (main_arg1 : FVec F S8x4096x64 .f32) (main_arg2 : FVec F S8x4096x64 .f32) (main_arg3 : FVec F S4096x4096 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg0 main_arg1 main_arg3 main_v13 main_v16
-- ==== Kernel.lean ====
abbrev S8x4096x64 : Shape := ⟨3, ![8, 4096, 64]⟩
abbrev S4096x4096 : Shape := ⟨2, ![4096, 4096]⟩
abbrev S1x256x64 : Shape := ⟨3, ![1, 256, 64]⟩
abbrev S256x4096 : Shape := ⟨2, ![256, 4096]⟩
abbrev S256x64 : Shape := ⟨2, ![256, 64]⟩
abbrev S1x4096x64 : Shape := ⟨3, ![1, 4096, 64]⟩
abbrev S4096x64 : Shape := ⟨2, ![4096, 64]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S4096x4096, .f32⟩
  | .hbm, ⟨4, _⟩ => ⟨S8x4096x64, .bf16⟩
  | .hbm, ⟨5, _⟩ => ⟨S8x4096x64, .bf16⟩
  | .hbm, ⟨6, _⟩ => ⟨S8x4096x64, .bf16⟩
  | .hbm, ⟨7, _⟩ => ⟨S8x4096x64, .f32⟩
  | .local _ .vmem, ⟨0, _⟩ => ⟨S1x256x64, .bf16⟩
  | .local _ .vmem, ⟨1, _⟩ => ⟨S1x256x64, .bf16⟩
  | .local _ .vmem, ⟨2, _⟩ => ⟨S8x4096x64, .bf16⟩
  | .local _ .vmem, ⟨3, _⟩ => ⟨S8x4096x64, .bf16⟩
  | .local _ .vmem, ⟨4, _⟩ => ⟨S256x4096, .f32⟩
  | .local _ .vmem, ⟨5, _⟩ => ⟨S256x4096, .f32⟩
  | .local _ .vmem, ⟨6, _⟩ => ⟨S1x256x64, .f32⟩
  | .local _ .vmem, ⟨7, _⟩ => ⟨S1x256x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  broadcasts_S256x1_S256x64 : S256x1.Broadcasts S256x64
  shapeCasts_S256x64_S1x256x64 : S256x64.ShapeCasts S1x256x64
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  k0_off1_inb : ∀ i : grid0.Coords, ∀ a, (k0_off1 i) a + S1x4096x64.size a ≤ S8x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x4096x64.size a
  hwx0_0 : ∀ i : grid0.Coords, EltTy.bits .bf16 = 32 ∨ (Rect.block (s := S8x4096x64) S1x256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096x64.size a ≤ S8x4096x64.size a
  hwx0_1 : ∀ i : grid0.Coords, EltTy.bits .bf16 = 32 ∨ (Rect.block (s := S8x4096x64) S8x4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096x64.size a ≤ S8x4096x64.size a
  hwx0_2 : ∀ i : grid0.Coords, EltTy.bits .bf16 = 32 ∨ (Rect.block (s := S8x4096x64) S8x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S8x4096x64.size a
  hwx0_4 : ∀ i : grid0.Coords, EltTy.bits .f32 = 32 ∨ (Rect.block (s := S8x4096x64) S1x256x64.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S4096x4096 : Shape := ⟨2, ![4096, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1x4096x4096 : Shape := ⟨3, ![1, 4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S4096x4096, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S1x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .f32⟩
  | .hbm, ⟨30, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Attn.lean ====
/-
  Masked, renormalised attention for one (batch, query row): the two spellings this certificate compares, as
  plain functions of the four argument arrays, entry by entry over the extended reals.

  With s_k the scaled score of key k, M the row's maximum of the scores, e_k = exp (s_k − M) and m_k the mask
  entry, the kernel computes   (∑_k e_k m_k v_k) / (∑_k e_k m_k),
  the reference                ∑_k ((e_k / Z) m_k / L) v_k   with Z = ∑_k e_k and L = ∑_k (e_k / Z) m_k.
  The softmax normaliser Z cancels, so the two agree wherever every entry is a real number and L ≠ 0.
  The kernel scales the query entries by 1/8 before the product, the reference scales the product.
-/
import Idealize.ShloMosaic.PureOps.Ideal
import Idealize.ShloMosaic.Lib.ValueIdx

noncomputable section

namespace Cert.Attn

open Idealize.ShloMosaic Idealize.ShloMosaic.ValueIdx

/-- Queries, keys and values: batch × position × feature. -/
abbrev SQ : Shape := ⟨3, ![8, 4096, 64]⟩
/-- The multiplicative mask: query position × key position. -/
abbrev SM : Shape := ⟨2, ![4096, 4096]⟩

/-- The largest of a row of 4096 extended reals (the fold of `max` from −∞). -/
def rowMax (f : Fin 4096 → EReal) : EReal := (Finset.univ : Finset (Fin 4096)).fold max ⊥ f

/-- The kernel's scale, the bf16 word of 0.125. -/
def cB : EReal := Ideal.ofBits .bf16 0x3E00#16
/-- The reference's scale, the f32 word of 0.125. -/
def cF : EReal := Ideal.ofBits .f32 0x3E000000#32

/-! ## The kernel's spelling, for one query row

One query row `q` (64 features), the 4096 keys `kk` and values `vv` of its batch, its mask row `mk`. -/

/-- Score of key `k`: the query entries scaled first. -/
def rowScore (q : Fin 64 → EReal) (kk : Fin 4096 → Fin 64 → EReal) (k : Fin 4096) : EReal :=
  ∑ j : Fin 64, (q j * cB) * kk k j

/-- Unnormalised masked weight of key `k`. -/
def rowW (q : Fin 64 → EReal) (kk : Fin 4096 → Fin 64 → EReal) (mk : Fin 4096 → EReal) (k : Fin 4096) : EReal :=
  Ideal.exp (rowScore q kk k - rowMax (rowScore q kk)) * mk k

/-- The row's output entry `d`: weighted sum of the values over the sum of the weights. -/
def rowK (q : Fin 64 → EReal) (kk vv : Fin 4096 → Fin 64 → EReal) (mk : Fin 4096 → EReal) (d : Fin 64) : EReal :=
  Ideal.div (∑ k : Fin 4096, rowW q kk mk k * vv k d) (∑ k : Fin 4096, rowW q kk mk k)

variable (Q K V : SQ.Idx → EReal) (Mk : SM.Idx → EReal)

/-- The kernel's output entry `(b, r, d)`: the row function at query row `(b, r)`, batch `b`'s keys and
    values, and mask row `r`. -/
def outK (b : Fin 8) (r : Fin 4096) (d : Fin 64) : EReal :=
  rowK (fun j => Q (ix3 b r j)) (fun k j => K (ix3 b k j)) (fun k j => V (ix3 b k j)) (fun k => Mk (ix2 r k)) d

/-! ## The reference's spelling -/

/-- Score of key `k` for query `(b, r)`: the product scaled afterwards. -/
def scoreR (b : Fin 8) (r k : Fin 4096) : EReal := (∑ j : Fin 64, Q (ix3 b r j) * K (ix3 b k j)) * cF

/-- Shifted exponential of the score. -/
def eR (b : Fin 8) (r k : Fin 4096) : EReal := Ideal.exp (scoreR Q K b r k - rowMax (scoreR Q K b r))

/-- Softmax probability of key `k`. -/
def pR (b : Fin 8) (r k : Fin 4096) : EReal := Ideal.div (eR Q K b r k) (∑ k' : Fin 4096, eR Q K b r k')

/-- Masked probability. -/
def mR (b : Fin 8) (r k : Fin 4096) : EReal := pR Q K b r k * Mk (ix2 r k)

/-- The divisor of the renormalisation: the row's sum of masked probabilities. -/
def denR (b : Fin 8) (r : Fin 4096) : EReal := ∑ k : Fin 4096, mR Q K Mk b r k

/-- The reference's output entry. -/
def outR (b : Fin 8) (r : Fin 4096) (d : Fin 64) : EReal :=
  ∑ k : Fin 4096, Ideal.div (mR Q K Mk b r k) (denR Q K Mk b r) * V (ix3 b k d)

end Cert.Attn

end
-- ==== Proof.AttnLaw.lean ====
/-
  The softmax normaliser cancels: on real entries, and where the reference's renormalisation divides by a
  nonzero number, the kernel's quotient of sums is the reference's sum of renormalised terms.
-/
import proofs.«403943_j28278064677159_3_alg».proof.Proof.Attn
import Mathlib.Analysis.SpecialFunctions.Exp
import Mathlib.Tactic.FieldSimp
import Mathlib.Tactic.Ring
import Mathlib.Tactic.NormNum

noncomputable section

namespace Cert.Attn

open Idealize.ShloMosaic Idealize.ShloMosaic.ValueIdx

/-! ## The two scale words -/

/-- The bf16 word 0x3E00: sign 0, exponent field 124, fraction 0, that is 2^7 · 2^(124 − 127 − 7) = 1/8. -/
theorem cB_eq : cB = ((1 / 8 : ℝ) : EReal) := by
  simp [cB, Ideal.ofBits, Ideal.ieee, -EReal.coe_mul]; norm_num

/-- The f32 word 0x3E000000: sign 0, exponent field 124, fraction 0, that is 2^23 · 2^(124 − 127 − 23) = 1/8. -/
theorem cF_eq : cF = ((1 / 8 : ℝ) : EReal) := by
  simp [cF, Ideal.ofBits, Ideal.ieee, -EReal.coe_mul]; norm_num

/-! ## Sums and maxima of real numbers inside the extended reals -/

section Abstract

variable {ι : Type*}

/-- A finite sum of real numbers, taken in the extended reals, is the real sum. -/
theorem coe_sum (s : Finset ι) (f : ι → ℝ) :
    (∑ i ∈ s, ((f i : ℝ) : EReal)) = ((∑ i ∈ s, f i : ℝ) : EReal) := by
  classical
  refine Finset.induction_on s ?_ ?_
  · simp
  · intro a t ha ih
    rw [Finset.sum_insert ha, Finset.sum_insert ha, ih, EReal.coe_add]

/-- The fold of max from −∞ is the supremum. -/
theorem fold_max_eq_sup (s : Finset ι) (f : ι → EReal) : s.fold max ⊥ f = s.sup f := rfl

/-- The maximum of a nonempty finite family of real numbers is one of them, hence real. -/
theorem fold_max_coe (s : Finset ι) (hs : s.Nonempty) (f : ι → ℝ) :
    ∃ M : ℝ, s.fold max ⊥ (fun k => ((f k : ℝ) : EReal)) = (M : EReal) := by
  obtain ⟨i, -, hi⟩ := Finset.exists_mem_eq_sup s hs (fun k => ((f k : ℝ) : EReal))
  exact ⟨f i, by rw [fold_max_eq_sup, hi]⟩

end Abstract

/-! ## The cancellation, over abstract real data

With weights e, mask m, values v, normaliser Z = ∑ e and L = ∑ (e/Z) m:
∑ e m = Z · L, so (∑ e m v) / (∑ e m) = ∑ ((e/Z) m / L) v. -/

section Cancel

variable {ι : Type*} [Fintype ι]

/-- The real identity: with Z ≠ 0 and L = ∑ (e/Z) m ≠ 0, the quotient of sums is the sum of renormalised terms. -/
theorem real_cancel (e m v : ι → ℝ) (Z L : ℝ) (hZ : Z ≠ 0) (hL : L ≠ 0)
    (hLdef : L = ∑ k, e k * (1 / Z) * m k) :
    (∑ k, e k * m k * v k) * (1 / (∑ k, e k * m k)) = ∑ k, e k * (1 / Z) * m k * (1 / L) * v k := by
  have hW : ∑ k, e k * m k = Z * L := by
    rw [hLdef, Finset.mul_sum]
    refine Finset.sum_congr rfl fun k _ => ?_
    field_simp
  rw [hW, Finset.sum_mul]
  refine Finset.sum_congr rfl fun k _ => ?_
  field_simp

/-- The same over the extended reals, with the division that has corners at zero: every divisor met is a nonzero
    real, so each division is the product with the reciprocal. -/
theorem div_sum_eq (e m v : ι → ℝ) (hZ : ∑ k, e k ≠ 0)
    (hL : (∑ k, Ideal.div (e k : EReal) (∑ k', (e k' : EReal)) * (m k : EReal)) ≠ 0) :
    Ideal.div (∑ k, ((e k : EReal) * (m k : EReal)) * (v k : EReal)) (∑ k, (e k : EReal) * (m k : EReal))
      = ∑ k, Ideal.div (Ideal.div (e k : EReal) (∑ k', (e k' : EReal)) * (m k : EReal))
          (∑ k'', Ideal.div (e k'' : EReal) (∑ k', (e k' : EReal)) * (m k'' : EReal)) * (v k : EReal) := by
  have hZc : (∑ k', (e k' : EReal)) = ((∑ k', e k' : ℝ) : EReal) := coe_sum _ _
  have hp : ∀ k, Ideal.div (e k : EReal) ((∑ k', e k' : ℝ) : EReal) * (m k : EReal)
      = ((e k * (1 / ∑ k', e k') * m k : ℝ) : EReal) := by
    intro k; rw [Ideal.div_coe hZ, ← EReal.coe_mul, ← EReal.coe_mul]
  have hLc : (∑ k, Ideal.div (e k : EReal) (∑ k', (e k' : EReal)) * (m k : EReal))
      = ((∑ k, e k * (1 / ∑ k', e k') * m k : ℝ) : EReal) := by
    rw [hZc]; simp only [hp]; exact coe_sum _ _
  rw [hLc] at hL
  have hL' : (∑ k, e k * (1 / ∑ k', e k') * m k) ≠ 0 := fun h => hL (by rw [h]; rfl)
  have hW : ∑ k, e k * m k = (∑ k', e k') * (∑ k, e k * (1 / ∑ k', e k') * m k) := by
    rw [Finset.mul_sum]
    refine Finset.sum_congr rfl fun k _ => ?_
    field_simp
  have hW' : ∑ k, e k * m k ≠ 0 := by rw [hW]; exact mul_ne_zero hZ hL'
  have hnum : (∑ k, ((e k : EReal) * (m k : EReal)) * (v k : EReal)) = ((∑ k, e k * m k * v k : ℝ) : EReal) := by
    simp only [← EReal.coe_mul]; exact coe_sum _ _
  have hden : (∑ k, (e k : EReal) * (m k : EReal)) = ((∑ k, e k * m k : ℝ) : EReal) := by
    simp only [← EReal.coe_mul]; exact coe_sum _ _
  have hterm : ∀ k, Ideal.div (Ideal.div (e k : EReal) (∑ k', (e k' : EReal)) * (m k : EReal))
      (∑ k'', Ideal.div (e k'' : EReal) (∑ k', (e k' : EReal)) * (m k'' : EReal)) * (v k : EReal)
      = ((e k * (1 / ∑ k', e k') * m k * (1 / ∑ k, e k * (1 / ∑ k', e k') * m k) * v k : ℝ) : EReal) := by
    intro k
    rw [hLc, hZc, hp, Ideal.div_coe hL', ← EReal.coe_mul, ← EReal.coe_mul]
  rw [hnum, hden, Ideal.div_coe hW', ← EReal.coe_mul]
  simp only [hterm]
  rw [coe_sum]
  exact congrArg _ (real_cancel e m v _ _ hZ hL' rfl)

end Cancel

/-! ## The two spellings on real entries -/

variable (Q K V : SQ.Idx → EReal) (Mk : SM.Idx → EReal)

theorem outK_eq_outR (hQ : ∀ i, ∃ x : ℝ, Q i = (x : EReal)) (hK : ∀ i, ∃ x : ℝ, K i = (x : EReal))
    (hV : ∀ i, ∃ x : ℝ, V i = (x : EReal)) (hM : ∀ i, ∃ x : ℝ, Mk i = (x : EReal))
    (hden : ∀ b r, denR Q K Mk b r ≠ 0) (b : Fin 8) (r : Fin 4096) (d : Fin 64) :
    outK Q K V Mk b r d = outR Q K V Mk b r d := by
  choose q hq using hQ
  choose kk hk using hK
  choose v hv using hV
  choose m hm using hM
  -- the scores: both spellings give the real number s k = ∑ j, q j · (1/8) · kk k j
  have hsK : ∀ k, rowScore (fun j => Q (ix3 b r j)) (fun k j => K (ix3 b k j)) k
      = ((∑ j, q (ix3 b r j) * (1 / 8) * kk (ix3 b k j) : ℝ) : EReal) := by
    intro k
    simp only [rowScore, hq, hk, cB_eq, ← EReal.coe_mul]
    exact coe_sum _ _
  have hsR : ∀ k, scoreR Q K b r k = ((∑ j, q (ix3 b r j) * (1 / 8) * kk (ix3 b k j) : ℝ) : EReal) := by
    intro k
    simp only [scoreR, hq, hk, cF_eq, ← EReal.coe_mul]
    rw [coe_sum, ← EReal.coe_mul, Finset.sum_mul]
    refine congrArg _ (Finset.sum_congr rfl fun j _ => ?_)
    ring
  have hsKf : rowScore (fun j => Q (ix3 b r j)) (fun k j => K (ix3 b k j))
      = fun k => ((∑ j, q (ix3 b r j) * (1 / 8) * kk (ix3 b k j) : ℝ) : EReal) := funext hsK
  have hsRf : scoreR Q K b r
      = fun k => ((∑ j, q (ix3 b r j) * (1 / 8) * kk (ix3 b k j) : ℝ) : EReal) := funext hsR
  -- the row maximum is a real number M
  obtain ⟨M, hMx⟩ := fold_max_coe (Finset.univ : Finset (Fin 4096)) Finset.univ_nonempty
    (fun k => ∑ j, q (ix3 b r j) * (1 / 8) * kk (ix3 b k j))
  -- the shifted exponentials are real
  have heK : ∀ k, Ideal.exp (rowScore (fun j => Q (ix3 b r j)) (fun k j => K (ix3 b k j)) k
        - rowMax (rowScore (fun j => Q (ix3 b r j)) (fun k j => K (ix3 b k j))))
      = ((Real.exp ((∑ j, q (ix3 b r j) * (1 / 8) * kk (ix3 b k j)) - M) : ℝ) : EReal) := by
    intro k
    rw [hsKf, rowMax, hMx, ← EReal.coe_sub, Ideal.exp_coe]
  have heR : ∀ k, eR Q K b r k
      = ((Real.exp ((∑ j, q (ix3 b r j) * (1 / 8) * kk (ix3 b k j)) - M) : ℝ) : EReal) := by
    intro k
    rw [eR, hsRf, rowMax, hMx, ← EReal.coe_sub, Ideal.exp_coe]
  -- the normaliser is positive
  have hZ : ∑ k : Fin 4096, Real.exp ((∑ j, q (ix3 b r j) * (1 / 8) * kk (ix3 b k j)) - M) ≠ 0 :=
    (Finset.sum_pos (fun k _ => Real.exp_pos _) Finset.univ_nonempty).ne'
  have hL := hden b r
  simp only [denR, mR, pR, heR, hm] at hL
  simp only [outK, outR, rowK, rowW, denR, mR, pR, heK, heR, hv, hm]
  exact div_sum_eq (fun k => Real.exp ((∑ j, q (ix3 b r j) * (1 / 8) * kk (ix3 b k j)) - M))
    (fun k => m (ix2 r k)) (fun k => v (ix3 b k d)) hZ hL

end Cert.Attn

end
-- ==== Proof.RefRead.lean ====
/-
  The reference's program read entry by entry: its result is `Attn.outR` of the four arguments, and the
  divisor of its renormalisation (the eighteenth operation's result) is `Attn.denR`.
-/
import proofs.«403943_j28278064677159_3_alg».proof.Proof.Attn
import proofs.«403943_j28278064677159_3_alg».proof.Proof.Gen.ReferenceIdeal.Read

noncomputable section

namespace Cert.RefRead

open Idealize.ShloMosaic Idealize.ShloMosaic.ValueIdx Cert.ReferenceIdeal

variable [Cert.ReferenceIdeal.Facts]

/-! ## The index functions of the stages, at indices given by their coordinates -/

private theorem lidx0 (b : Fin 8) (r k : Fin 4096) (j : Fin 64) :
    Read.lidx_main_v0 (ix3 b r k) j = ix3 b r j :=
  funext fun a => Fin.ext (by match a with | ⟨0, _⟩ => rfl | ⟨1, _⟩ => rfl | ⟨2, _⟩ => rfl)

private theorem ridx0 (b : Fin 8) (r k : Fin 4096) (j : Fin 64) :
    Read.ridx_main_v0 (ix3 b r k) j = ix3 b k j :=
  funext fun a => Fin.ext (by match a with | ⟨0, _⟩ => rfl | ⟨1, _⟩ => rfl | ⟨2, _⟩ => rfl)

private theorem idx7 (b : Fin 8) (r k : Fin 4096) : Read.idx_main_v7 (ix3 b r k) = ix3 b r 0 :=
  funext fun a => Fin.ext (by match a with | ⟨0, _⟩ => rfl | ⟨1, _⟩ => rfl | ⟨2, _⟩ => rfl)

private theorem idx6 (b : Fin 8) (r : Fin 4096) (z : Fin 1) : Read.idx_main_v6 (ix3 b r z) = ix2 b r :=
  funext fun a => Fin.ext (by match a with | ⟨0, _⟩ => rfl | ⟨1, _⟩ => rfl)

private theorem idx10 (b : Fin 8) (r k : Fin 4096) : Read.idx_main_v10 (ix2 b r) k = ix3 b r k :=
  funext fun a => Fin.ext (by match a with | ⟨0, _⟩ => rfl | ⟨1, _⟩ => rfl | ⟨2, _⟩ => rfl)

private theorem idx12 (b : Fin 8) (r k : Fin 4096) : Read.idx_main_v12 (ix3 b r k) = ix3 b r 0 :=
  funext fun a => Fin.ext (by match a with | ⟨0, _⟩ => rfl | ⟨1, _⟩ => rfl | ⟨2, _⟩ => rfl)

private theorem idx11 (b : Fin 8) (r : Fin 4096) (z : Fin 1) : Read.idx_main_v11 (ix3 b r z) = ix2 b r :=
  funext fun a => Fin.ext (by match a with | ⟨0, _⟩ => rfl | ⟨1, _⟩ => rfl)

private theorem idx15 (b : Fin 8) (r k : Fin 4096) : Read.idx_main_v15 (ix3 b r k) = ix3 0 r k :=
  funext fun a => Fin.ext (by match a with | ⟨0, _⟩ => rfl | ⟨1, _⟩ => rfl | ⟨2, _⟩ => rfl)

private theorem idx14 (z : Fin 1) (r k : Fin 4096) : Read.idx_main_v14 (ix3 z r k) = ix2 r k :=
  funext fun a => Fin.ext (by match a with | ⟨0, _⟩ => rfl | ⟨1, _⟩ => rfl)

private theorem idx17 (b : Fin 8) (r k : Fin 4096) : Read.idx_main_v17 (ix2 b r) k = ix3 b r k :=
  funext fun a => Fin.ext (by match a with | ⟨0, _⟩ => rfl | ⟨1, _⟩ => rfl | ⟨2, _⟩ => rfl)

private theorem idx19 (b : Fin 8) (r k : Fin 4096) : Read.idx_main_v19 (ix3 b r k) = ix3 b r 0 :=
  funext fun a => Fin.ext (by match a with | ⟨0, _⟩ => rfl | ⟨1, _⟩ => rfl | ⟨2, _⟩ => rfl)

private theorem idx18 (b : Fin 8) (r : Fin 4096) (z : Fin 1) : Read.idx_main_v18 (ix3 b r z) = ix2 b r :=
  funext fun a => Fin.ext (by match a with | ⟨0, _⟩ => rfl | ⟨1, _⟩ => rfl)

private theorem lidx21 (b : Fin 8) (r : Fin 4096) (d : Fin 64) (k : Fin 4096) :
    Read.lidx_main_v21 (ix3 b r d) k = ix3 b r k :=
  funext fun a => Fin.ext (by match a with | ⟨0, _⟩ => rfl | ⟨1, _⟩ => rfl | ⟨2, _⟩ => rfl)

private theorem ridx21 (b : Fin 8) (r : Fin 4096) (d : Fin 64) (k : Fin 4096) :
    Read.ridx_main_v21 (ix3 b r d) k = ix3 b k d :=
  funext fun a => Fin.ext (by match a with | ⟨0, _⟩ => rfl | ⟨1, _⟩ => rfl | ⟨2, _⟩ => rfl)

/-! ## The stages -/

/-- The scaled score: the third operation's result at (b, r, k). -/
private theorem score_apply (x0 x1 : FVec Ideal S8x4096x64 .f32) (b : Fin 8) (r k : Fin 4096) :
    Read.val_main_v2 (F := Ideal) x0 x1 (ix3 b r k) = Cert.Attn.scoreR x0 x1 b r k := by
  rw [Read.val_main_v2_apply, Read.val_main_v0_apply, Read.val_main_v1_apply, Read.val_main_cst_apply]
  simp only [lidx0, ridx0, Ideal.mulf_def, Ideal.ofBits_def]
  rfl

/-- The −∞ word. -/
private theorem negInf : Ideal.ofBits .f32 0xFF800000#32 = (⊥ : EReal) := by
  simp [Ideal.ofBits, Ideal.ieee]

/-- The row's maximum: the sixth operation's result at (b, r), the fold of `max` from −∞ over the row's scores
    (and the maximum of −∞ with it once more). -/
private theorem max_apply (x0 x1 : FVec Ideal S8x4096x64 .f32) (b : Fin 8) (r : Fin 4096) :
    Read.val_main_v5 (F := Ideal) x0 x1 (ix2 b r) = Cert.Attn.rowMax (Cert.Attn.scoreR x0 x1 b r) := by
  have hred : S8x4096x4096.Reduces [2] S8x4096 := by decide
  have h3 : Read.val_main_v3 (F := Ideal) x0 x1 (ix2 b r) = Cert.Attn.rowMax (Cert.Attn.scoreR x0 x1 b r) := by
    unfold Read.val_main_v3
    rw [Host.reduce_eq_fold_single FloatOps.maximumf _ _ Facts₀.reducesTo_S8x4096x4096_S8x4096_d2 hred Facts₀.h_S_ (ix2 b r),
      Read.val_main_cst_0_apply, Ideal.ofBits_def, negInf]
    have hf : (Read.val_main_v2 (F := Ideal) x0 x1 ∘ hred.lift (ix2 b r)) = Cert.Attn.scoreR x0 x1 b r :=
      funext fun (k : Fin 4096) => by
        have e : hred.lift (ix2 b r) k = ix3 b r k :=
          funext fun a => Fin.ext (by match a with | ⟨0, _⟩ => rfl | ⟨1, _⟩ => rfl | ⟨2, _⟩ => rfl)
        exact (congrArg (Read.val_main_v2 (F := Ideal) x0 x1) e).trans (score_apply x0 x1 b r k)
    rw [hf]
    rfl
  rw [Read.val_main_v5_apply, Read.val_main_v4_apply, Read.val_main_cst_1_apply, h3, Ideal.maximumf_def,
    Ideal.ofBits_def, negInf]
  exact max_bot_left _

/-- The shifted exponential: the tenth operation's result at (b, r, k). -/
private theorem e_apply (x0 x1 : FVec Ideal S8x4096x64 .f32) (b : Fin 8) (r k : Fin 4096) :
    Read.val_main_v9 (F := Ideal) x0 x1 (ix3 b r k) = Cert.Attn.eR x0 x1 b r k := by
  rw [Read.val_main_v9_apply, Read.val_main_v8_apply, Read.val_main_v7_apply, idx7, Read.val_main_v6_apply, idx6,
    max_apply, score_apply, Ideal.hostUnary_exp_def, Ideal.subf_def]
  rfl

/-- The softmax normaliser: the eleventh operation's result at (b, r), zero plus the row's sum of exponentials. -/
private theorem sum_apply (x0 x1 : FVec Ideal S8x4096x64 .f32) (b : Fin 8) (r : Fin 4096) :
    Read.val_main_v10 (F := Ideal) x0 x1 (ix2 b r) = ∑ k : Fin 4096, Cert.Attn.eR x0 x1 b r k := by
  rw [Read.val_main_v10_apply, Read.val_main_cst_2_apply, Ideal.ofBits_def, Ideal.ofBits_zero_f32, zero_add]
  exact Finset.sum_congr rfl fun k _ => by rw [idx10, e_apply]

/-- The softmax probability: the fourteenth operation's result at (b, r, k). -/
private theorem p_apply (x0 x1 : FVec Ideal S8x4096x64 .f32) (b : Fin 8) (r k : Fin 4096) :
    Read.val_main_v13 (F := Ideal) x0 x1 (ix3 b r k) = Cert.Attn.pR x0 x1 b r k := by
  rw [Read.val_main_v13_apply, Read.val_main_v12_apply, idx12, Read.val_main_v11_apply, idx11, sum_apply, e_apply,
    Ideal.hostDivf_def]
  rfl

/-- The masked probability: the seventeenth operation's result at (b, r, k); the mask is read at (r, k) for
    every batch. -/
private theorem m_apply (x0 x1 : FVec Ideal S8x4096x64 .f32) (x3 : FVec Ideal S4096x4096 .f32) (b : Fin 8)
    (r k : Fin 4096) :
    Read.val_main_v16 (F := Ideal) x0 x1 x3 (ix3 b r k) = Cert.Attn.mR x0 x1 x3 b r k := by
  rw [Read.val_main_v16_apply, Read.val_main_v15_apply, idx15, Read.val_main_v14_apply, idx14, p_apply,
    Ideal.mulf_def]
  rfl

theorem den_apply (x0 x1 : FVec Ideal S8x4096x64 .f32) (x3 : FVec Ideal S4096x4096 .f32) (b : Fin 8) (r : Fin 4096) :
    Cert.ReferenceIdeal.Read.val_main_v17 (F := Ideal) x0 x1 x3 (ix2 b r) = Cert.Attn.denR x0 x1 x3 b r := by
  rw [Read.val_main_v17_apply, Read.val_main_cst_3_apply, Ideal.ofBits_def, Ideal.ofBits_zero_f32, zero_add]
  unfold Cert.Attn.denR
  exact Finset.sum_congr rfl fun k _ => by rw [idx17, m_apply]

theorem out_apply (x0 x1 x2 : FVec Ideal S8x4096x64 .f32) (x3 : FVec Ideal S4096x4096 .f32)
    (b : Fin 8) (r : Fin 4096) (d : Fin 64) :
    Cert.ReferenceIdeal.Read.val_main_v21 (F := Ideal) x0 x1 x2 x3 (ix3 b r d) = Cert.Attn.outR x0 x1 x2 x3 b r d := by
  rw [Read.val_main_v21_apply]
  unfold Cert.Attn.outR
  refine Finset.sum_congr rfl fun k _ => ?_
  rw [lidx21, ridx21, Read.val_main_v20_apply, Read.val_main_v19_apply, idx19, Read.val_main_v18_apply, idx18,
    den_apply, m_apply, Ideal.hostDivf_def]

end Cert.RefRead

end
-- ==== Proof.PreRead.lean ====
/-
  What the precondition says of the four arguments: every entry is a real number, and the divisor of the
  reference's renormalisation is nonzero in every row.
-/
import proofs.«403943_j28278064677159_3_alg».proof.Proof.Attn
import proofs.«403943_j28278064677159_3_alg».proof.Pre_finite_inputs
import proofs.«403943_j28278064677159_3_alg».proof.Proof.RefRead
import Idealize.ShloMosaic.Lib.ReduceAll
import Idealize.ShloMosaic.Lib.Pipeline.Value
import Idealize.ShloMosaic.PureOps.Ideal.Laws

noncomputable section

namespace Cert.PreRead

open Idealize.ShloMosaic Idealize.ShloMosaic.ValueIdx

/-- The scalar shape has one index. -/
instance : Subsingleton Cert.Pre_finite_inputs.S_.Idx := ⟨fun _ _ => funext fun d => d.elim0⟩

/-- The f32 word of +∞ is the top element. -/
theorem inf_word : Ideal.ofBits .f32 0x7F800000#32 = (⊤ : EReal) := by simp [Ideal.ofBits, Ideal.ieee]

/-- An extended real whose absolute value max x (−x) is below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- The test "|x| < +∞ at every index", all of whose bits are set, makes every entry a real number: the comparison
    against the splat of the +∞ word, read at an index, is the scalar comparison of max x (−x) with that word. -/
theorem real_of_all {s : Shape} (hb : Cert.Pre_finite_inputs.S_.BroadcastsInDim s (![] : Fin 0 → Fin s.rank))
    (x : FVec Ideal s .f32)
    (h : ∀ i, cmpf .olt (Host.absf x)
      (broadcastInDim s ![] hb (constant Cert.Pre_finite_inputs.S_ .f32 0x7F800000#32)) i = 1#1) (i : s.Idx) :
    ∃ r : ℝ, x i = (r : EReal) :=
  real_of_abs_lt (x i) (h i)

open Cert.Pre_finite_inputs in
/-- The test "≠ 0" of a row quantity D, broadcast to a unit third axis and compared with the zero splat, read at
    (b, r, 0): the entry D (b, r) is not zero. -/
theorem row_ne_zero (hb : S8x4096.BroadcastsInDim S8x4096x1 (![0, 1] : Fin 2 → Fin S8x4096x1.rank))
    (hz : S_.BroadcastsInDim S8x4096x1 (![] : Fin 0 → Fin S8x4096x1.rank))
    (D : FVec Ideal S8x4096 .f32) (b : Fin 8) (r : Fin 4096)
    (h : cmpf .une (broadcastInDim S8x4096x1 ![0, 1] hb D)
      (broadcastInDim S8x4096x1 ![] hz (constant S_ .f32 0x00000000#32)) (ix3 b r (0 : Fin 1)) = 1#1) :
    D (ix2 b r) ≠ 0 := by
  have e1 : broadcastInDim S8x4096x1 ![0, 1] hb D (ix3 b r (0 : Fin 1)) = D (ix2 b r) :=
    broadcastInDim_apply _ hb D _ (ix2 b r) (fun a => match a with
      | ⟨0, _⟩ => by show b.val = if (8 : Nat) = 1 then 0 else b.val; rw [if_neg (by decide)]
      | ⟨1, _⟩ => by show r.val = if (4096 : Nat) = 1 then 0 else r.val; rw [if_neg (by decide)])
  have h' : Ideal.cmp .une (broadcastInDim S8x4096x1 ![0, 1] hb D (ix3 b r (0 : Fin 1)))
      (Ideal.ofBits .f32 0x00000000#32) = 1#1 := h
  rw [e1, Ideal.ofBits_zero_f32] at h'
  intro h0
  rw [h0] at h'
  simp [Ideal.cmp] at h'

variable [Cert.Pre_finite_inputs.Facts] [Cert.ReferenceIdeal.Facts]

theorem of_pre (x0 x1 x2 : FVec Ideal Cert.Attn.SQ .f32) (x3 : FVec Ideal Cert.Attn.SM .f32)
    (h : Cert.Pre_finite_inputs.fn (F := Ideal) x0 x1 x2 x3 = fun _ => 1#1) :
    (∀ i, ∃ x : ℝ, x0 i = (x : EReal)) ∧ (∀ i, ∃ x : ℝ, x1 i = (x : EReal)) ∧ (∀ i, ∃ x : ℝ, x2 i = (x : EReal))
      ∧ (∀ i, ∃ x : ℝ, x3 i = (x : EReal)) ∧ ∀ b r, Cert.Attn.denR x0 x1 x3 b r ≠ 0 := by
  have e := congrFun h ix0
  unfold Cert.Pre_finite_inputs.fn Cert.Pre_finite_inputs.fn_part1 Cert.Pre_finite_inputs.fn_part2 at e
  simp only [andi, IntOp.andi_eq_one] at e
  obtain ⟨⟨⟨⟨h0, h1⟩, h2⟩, h3⟩, h4⟩ := e
  refine ⟨real_of_all _ x0 (Host.reduce_andi_all _ _ _ _ _ h0), real_of_all _ x1 (Host.reduce_andi_all _ _ _ _ _ h1),
    real_of_all _ x2 (Host.reduce_andi_all _ _ _ _ _ h2), real_of_all _ x3 (Host.reduce_andi_all _ _ _ _ _ h3),
    fun b r => ?_⟩
  have e4 := row_ne_zero _ _ _ b r (Host.reduce_andi_all _ _ _ _ _ h4 (ix3 b r (0 : Fin 1)))
  rw [← Cert.RefRead.den_apply x0 x1 x3 b r]
  exact e4

end Cert.PreRead

end
-- ==== Proof.KerPay.lean ====
/-
  The kernel body's arithmetic read entry by entry: from the query block, batch `b`'s keys and values and the mask
  block, entry `(r, d)` of what it stores is the row function `Attn.rowK` at block row `r`.
-/
import proofs.«403943_j28278064677159_3_alg».proof.Proof.Attn
import proofs.«403943_j28278064677159_3_alg».proof.Proof.Gen.KernelIdeal.Skeleton
import Idealize.ShloMosaic.Lib.Pipeline.Value
import Idealize.ShloMosaic.Lib.ValueLayout
import Idealize.ShloMosaic.PureOps.Ideal.Laws

noncomputable section

namespace Cert.KerPay

open Idealize.ShloMosaic Idealize.ShloMosaic.ValueIdx Cert.KernelIdeal

/-! ## A column kept as a unit axis

A row statistic (a maximum, a sum) is a vector of length `a`; the kernel keeps it as an `[a, 1]` column and spreads
the column over the `b` entries of each row. -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products, entry by entry

The score product contracts the feature axis of the query block `[256, 64]` with the feature axis of the keys
`[4096, 64]`; the value product contracts the key axis of the weights `[256, 4096]` with the key axis of the values
`[4096, 64]`. Each operand index, coordinate by coordinate. -/

theorem lhs_score_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs_score_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhs_score_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhs_score_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Entry `(r, k)` of the score product into a zero accumulator: the sum over the 64 features of the query row's
    entry times the key row's entry. -/
theorem score_matmul_apply (x : FVec Ideal S256x64 .bf16) (y : FVec Ideal S4096x64 .bf16) (r : Fin 256) (k : Fin 4096) :
    matmul (F := Ideal) dot_S256x64_S4096x64_S256x4096_1_1_0_0_n_n none x y (constant (F := Ideal) S256x4096 .f32 0x00000000#32) (ix2 r k)
      = ∑ j : Fin 64, x (ix2 r j) * y (ix2 k j) := by
  simp only [matmul]
  rw [Ideal.matmul_constant_zero_apply, ← Equiv.sum_comp (contrEquiv1 dot_S256x64_S4096x64_S256x4096_1_1_0_0_n_n 64 rfl rfl).symm]
  refine Finset.sum_congr rfl fun j _ => ?_
  have hj := contrEquiv1_symm_val dot_S256x64_S4096x64_S256x4096_1_1_0_0_n_n 64 rfl rfl j
  have el : dot_S256x64_S4096x64_S256x4096_1_1_0_0_n_n.lhsIdx (ix2 r k) ((contrEquiv1 dot_S256x64_S4096x64_S256x4096_1_1_0_0_n_n 64 rfl rfl).symm j) = ix2 r j := funext fun a => Fin.ext (by
    match a with
    | ⟨0, _⟩ => exact lhs_score_0 _ _
    | ⟨1, _⟩ => exact (lhs_score_1 _ _).trans hj)
  have er : dot_S256x64_S4096x64_S256x4096_1_1_0_0_n_n.rhsIdx (ix2 r k) ((contrEquiv1 dot_S256x64_S4096x64_S256x4096_1_1_0_0_n_n 64 rfl rfl).symm j) = ix2 k j := funext fun a => Fin.ext (by
    match a with
    | ⟨0, _⟩ => exact rhs_score_0 _ _
    | ⟨1, _⟩ => exact (rhs_score_1 _ _).trans hj)
  rw [el, er]

theorem lhs_value_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs_value_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_value_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_value_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- Entry `(r, d)` of the value product into a zero accumulator: the sum over the 4096 keys of the weight times the
    value row's entry `d`. -/
theorem value_matmul_apply (w : FVec Ideal S256x4096 .bf16) (y : FVec Ideal S4096x64 .bf16) (r : Fin 256) (d : Fin 64) :
    matmul (F := Ideal) dot_S256x4096_S4096x64_S256x64_1_0_0_1_n_n none w y (constant (F := Ideal) S256x64 .f32 0x00000000#32) (ix2 r d)
      = ∑ k : Fin 4096, w (ix2 r k) * y (ix2 k d) := by
  simp only [matmul]
  rw [Ideal.matmul_constant_zero_apply, ← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r d) ((contrEquiv1 dot_S256x4096_S4096x64_S256x64_1_0_0_1_n_n 4096 rfl rfl).symm k) = ix2 r k := funext fun a => Fin.ext (by
    match a with
    | ⟨0, _⟩ => exact lhs_value_0 _ _
    | ⟨1, _⟩ => exact (lhs_value_1 _ _).trans hk)
  have er : dot_S256x4096_S4096x64_S256x64_1_0_0_1_n_n.rhsIdx (ix2 r d) ((contrEquiv1 dot_S256x4096_S4096x64_S256x64_1_0_0_1_n_n 4096 rfl rfl).symm k) = ix2 k d := funext fun a => Fin.ext (by
    match a with
    | ⟨0, _⟩ => exact (rhs_value_0 _ _).trans hk
    | ⟨1, _⟩ => exact rhs_value_1 _ _)
  rw [el, er]

/-! ## The kernel's arrays, one at a time

The payload is a chain of named arrays. Each is given here as a function of the loaded blocks, read at an index,
and the payload is the chain's last link. -/

/-- The exponential of an array, at an index. -/
theorem exp_apply {s : Shape} {φ : FTy} (a : FVec Ideal s φ) (i : s.Idx) :
    Idealize.ShloMosaic.exp a i = Ideal.exp (a i) := rfl

/-- Inserting the key coordinate `k` into the row index `r` gives the matrix index `(r, k)`. -/
theorem lift_row (h : S256x4096.Reduces [1] S256) (r : Fin 256) (k : Fin 4096) : h.lift (ix1 r) k = ix2 r k :=
  funext fun a => Fin.ext (by
    match a with
    | ⟨0, _⟩ => rfl
    | ⟨1, _⟩ => rfl)

/-- The score matrix: the query block, every entry scaled by 1/8, times the keys. -/
def scoreM (v0 : FVec Ideal S1x256x64 .bf16) (v5 : FVec Ideal S1x4096x64 .bf16) : FVec Ideal S256x4096 .f32 :=
  matmul dot_S256x64_S4096x64_S256x4096_1_1_0_0_n_n none
    (mulf (shapeCast S256x64 v0 Gen.shapeCasts_S1x256x64_S256x64)
      (broadcast S256x64 (Scalar.ofBits (F := Ideal) .bf16 0x3E00#16)))
    (shapeCast S4096x64 v5 Gen.shapeCasts_S1x4096x64_S4096x64)
    (constant S256x4096 .f32 0x00000000#32)

theorem scoreM_apply (v0 : FVec Ideal S1x256x64 .bf16) (v5 : FVec Ideal S1x4096x64 .bf16) (r : Fin 256) (k : Fin 4096) :
    scoreM v0 v5 (ix2 r k) = Attn.rowScore (fun j => v0 (ix3 0 r j)) (fun k j => v5 (ix3 0 k j)) k := by
  unfold scoreM Attn.rowScore
  rw [score_matmul_apply]
  refine Finset.sum_congr rfl fun j _ => ?_
  rw [mulf_apply, broadcast_apply, shapeCast_1ab_ab_apply, shapeCast_1ab_ab_apply]
  rfl

/-- Each row's largest score. -/
def rowMaxV (v0 : FVec Ideal S1x256x64 .bf16) (v5 : FVec Ideal S1x4096x64 .bf16) : FVec Ideal S256 .f32 :=
  multiReduction .maximumf [1] S256 (scoreM v0 v5) 0xFF800000#32 Gen.reduces_S256x4096_S256 (.inl rfl) rfl

/-- The accumulator the maximum starts from, the word of −∞, is the bottom element. -/
theorem ofBits_neg_inf : FloatOps.ofBits (F := Ideal) .f32 0xFF800000#32 = (⊥ : EReal) := by
  simp [Ideal.ofBits, Ideal.ieee]

theorem rowMaxV_apply (v0 : FVec Ideal S1x256x64 .bf16) (v5 : FVec Ideal S1x4096x64 .bf16) (r : Fin 256) :
    rowMaxV v0 v5 (ix1 r) = Attn.rowMax (Attn.rowScore (fun j => v0 (ix3 0 r j)) (fun k j => v5 (ix3 0 k j))) := by
  unfold rowMaxV
  refine (Ideal.multiReduction_maximumf_single (scoreM v0 v5) _ Gen.reduces_S256x4096_S256 _ _ (ix1 r)).trans ?_
  have hf : (scoreM v0 v5 ∘ Gen.reduces_S256x4096_S256.lift (ix1 r))
      = Attn.rowScore (fun j => v0 (ix3 0 r j)) (fun k j => v5 (ix3 0 k j)) := funext fun (k : Fin 4096) =>
    (congrArg (scoreM v0 v5) (lift_row _ r k)).trans (scoreM_apply v0 v5 r k)
  rw [ofBits_neg_inf, hf]
  rfl

/-- The unnormalised masked weights: the exponential of score minus row maximum, times the mask. -/
def weightM (v0 : FVec Ideal S1x256x64 .bf16) (v5 : FVec Ideal S1x4096x64 .bf16) (v17 : FVec Ideal S256x4096 .f32) :
    FVec Ideal S256x4096 .bf16 :=
  mulf
    (truncf .bf16
      (Idealize.ShloMosaic.exp (subf (scoreM v0 v5)
        (broadcastTo S256x4096 (shapeCast S256x1 (rowMaxV v0 v5) Gen.shapeCasts_S256_S256x1)
          Gen.broadcasts_S256x1_S256x4096)))
      Gen.bitsLt_bf16_f32)
    (truncf .bf16 v17 Gen.bitsLt_bf16_f32)

theorem weightM_apply (v0 : FVec Ideal S1x256x64 .bf16) (v5 : FVec Ideal S1x4096x64 .bf16) (v17 : FVec Ideal S256x4096 .f32)
    (r : Fin 256) (k : Fin 4096) :
    weightM v0 v5 v17 (ix2 r k)
      = Attn.rowW (fun j => v0 (ix3 0 r j)) (fun k j => v5 (ix3 0 k j)) (fun k => v17 (ix2 r k)) k := by
  unfold weightM Attn.rowW
  rw [mulf_apply, truncf_apply, truncf_apply, exp_apply, subf_apply, broadcastTo_a1_ab_apply, shapeCast_a_a1_apply,
    scoreM_apply, rowMaxV_apply]

/-- Each row's sum of weights. -/
def denV (v0 : FVec Ideal S1x256x64 .bf16) (v5 : FVec Ideal S1x4096x64 .bf16) (v17 : FVec Ideal S256x4096 .f32) :
    FVec Ideal S256 .f32 :=
  multiReduction .add [1] S256 (extf .f32 (weightM v0 v5 v17) Gen.bitsLt_bf16_f32) 0x00000000#32
    Gen.reduces_S256x4096_S256 (.inl rfl) rfl

theorem denV_apply (v0 : FVec Ideal S1x256x64 .bf16) (v5 : FVec Ideal S1x4096x64 .bf16) (v17 : FVec Ideal S256x4096 .f32)
    (r : Fin 256) :
    denV v0 v5 v17 (ix1 r)
      = ∑ k : Fin 4096, Attn.rowW (fun j => v0 (ix3 0 r j)) (fun k j => v5 (ix3 0 k j)) (fun k => v17 (ix2 r k)) k := by
  unfold denV
  refine (Ideal.multiReduction_add_single (extf .f32 (weightM v0 v5 v17) Gen.bitsLt_bf16_f32) _
    Gen.reduces_S256x4096_S256 _ _ (ix1 r)).trans ?_
  refine Finset.sum_congr rfl fun (k : Fin 4096) _ => ?_
  exact (congrArg (extf .f32 (weightM v0 v5 v17) Gen.bitsLt_bf16_f32) (lift_row _ r k)).trans
    ((extf_apply (weightM v0 v5 v17) Gen.bitsLt_bf16_f32 (ix2 r k)).trans (weightM_apply v0 v5 v17 r k))

/-- The payload is the quotient of the value product by the spread-out row sums, with a leading unit axis. -/
theorem pay_eq (v0 : FVec Ideal S1x256x64 .bf16) (v5 v8 : FVec Ideal S1x4096x64 .bf16) (v17 : FVec Ideal S256x4096 .f32) :
    Cert.KernelIdeal.Gen.k0_pay1 (F := Ideal) v0 v5 v8 v17
      = shapeCast S1x256x64
          (divf
            (matmul dot_S256x4096_S4096x64_S256x64_1_0_0_1_n_n none (weightM v0 v5 v17)
              (shapeCast S4096x64 v8 Gen.shapeCasts_S1x4096x64_S4096x64) (constant S256x64 .f32 0x00000000#32))
            (broadcastTo S256x64 (shapeCast S256x1 (denV v0 v5 v17) Gen.shapeCasts_S256_S256x1)
              Gen.broadcasts_S256x1_S256x64))
          Gen.shapeCasts_S256x64_S1x256x64 := rfl

variable [Cert.KernelIdeal.Facts]

theorem pay_apply (v0 : Vec Ideal S1x256x64 .bf16) (v5 v8 : Vec Ideal S1x4096x64 .bf16) (v17 : Vec Ideal S256x4096 .f32)
    (r : Fin 256) (d : Fin 64) :
    Cert.KernelIdeal.Gen.k0_pay1 (F := Ideal) v0 v5 v8 v17 (ix3 0 r d)
      = Cert.Attn.rowK (fun j => v0 (ix3 0 r j)) (fun k j => v5 (ix3 0 k j)) (fun k j => v8 (ix3 0 k j))
          (fun k => v17 (ix2 r k)) d := by
  rw [pay_eq, shapeCast_ab_1ab_apply, divf_apply, value_matmul_apply, broadcastTo_a1_ab_apply, shapeCast_a_a1_apply,
    denV_apply]
  unfold Attn.rowK
  refine congrArg (fun x => Ideal.div x _) (Finset.sum_congr rfl fun k _ => ?_)
  rw [weightM_apply, shapeCast_1ab_ab_apply]

end Cert.KerPay

end
-- ==== Proof.KerBlocks.lean ====
/-
  The kernel's result array. At grid point (qi, b) the body reads query block (b, qi) (256 rows), all of batch b's
  keys and values out of the resident arrays, and mask block qi (256 rows), and writes output block (b, qi); the
  256 × 64 entries it writes are the row function of `Attn` at rows 256·qi + r. The 16 × 8 blocks tile the
  array, so the array ends at `Attn.outK` of the four arguments, entry by entry. The three casts the program makes
  before the call are the identity on extended reals.
-/
import proofs.«403943_j28278064677159_3_alg».proof.Proof.Attn
import proofs.«403943_j28278064677159_3_alg».proof.Proof.KerPay
import proofs.«403943_j28278064677159_3_alg».proof.Proof.Gen.KernelIdeal.Frame
import proofs.«403943_j28278064677159_3_alg».proof.Proof.Gen.KernelIdeal.Value
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KerBlocks

open Cert.KernelIdeal Cert.KernelIdeal.Gen Cert.KernelIdeal.Value

theorem hz3 : (![0, 0, 0] : Fin 3 → Nat) = fun _ => 0 := funext fun a => by fin_cases a <;> rfl
theorem hz2 : (![0, 0] : Fin 2 → Nat) = fun _ => 0 := funext fun a => by fin_cases a <;> rfl

section anyF
variable {F : FTy → Type} [FloatOps F]

/-- What the body leaves in the output's staging buffer: its one payload, of the query block, the two resident
    arrays read at the batch's offset, and the mask block. -/
theorem out_eq (c : Dev nD) (i : grid0.Coords) (arg2 : Memref sig .tc .vmem S1x256x64 .bf16) (harg2 : arg2.IsWhole) (arg3 : Memref sig .tc .vmem S8x4096x64 .bf16) (harg3 : arg3.IsWhole) (arg4 : Memref sig .tc .vmem S8x4096x64 .bf16) (harg4 : arg4.IsWhole) (arg5 : Memref sig .tc .vmem S256x4096 .f32) (harg5 : arg5.IsWhole) (arg6 : Memref sig .tc .vmem S1x256x64 .f32) (harg6 : arg6.IsWhole)
    (x0 : Vec F S1x256x64 .bf16) (x1 : Vec F S8x4096x64 .bf16) (x2 : Vec F S8x4096x64 .bf16) (x3 : Vec F S256x4096 .f32) :
    out0_A_4 c i arg2 harg2 arg3 harg3 arg4 harg4 arg5 harg5 arg6 harg6 x0 x1 x2 x3
      = k0_pay1 x0 (View.ld x1 (Rect.unit (s := S8x4096x64) (k0_off1 i) S1x4096x64.size (k0_off1_inb i)))
          (View.ld x2 (Rect.unit (s := S8x4096x64) (k0_off1 i) S1x4096x64.size (k0_off1_inb i))) x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  try sl_unfold_words
  rw [View.canon_unit_zero hz3]
  simp only [View.readAt_eq_ld, harg2.read_unread, harg3.read_unread, harg4.read_unread, harg5.read_unread,
    View.ld_unit_zero (S := S1x256x64) hz3, View.ld_unit_zero (S := S256x4096) hz2]

end anyF

variable (m : (ℓ : Loc nD τ sig) → Buf (Elt Ideal) ℓ) (ρ : Dev nD → PrngReg)

/-- The four argument arrays. -/
abbrev qA (c : Dev nD) : S8x4096x64.Idx → EReal := m ((c : Thread nD τ).loc main_arg0)
abbrev kA (c : Dev nD) : S8x4096x64.Idx → EReal := m ((c : Thread nD τ).loc main_arg1)
abbrev vA (c : Dev nD) : S8x4096x64.Idx → EReal := m ((c : Thread nD τ).loc main_arg2)
abbrev mA (c : Dev nD) : S4096x4096.Idx → EReal := m ((c : Thread nD τ).loc main_arg3)

/-- The result array: entry (b, r, d) is the kernel's spelling of masked attention. -/
abbrev G (c : Dev nD) : S8x4096x64.Idx → EReal :=
  fun i => Cert.Attn.outK (qA m c) (kA m c) (vA m c) (mA m c) (i 0) (i 1) (i 2)

/-! ## The arrays the call finds: the casts are the identity -/

theorem V_v0 (c : Dev nD) : (V m c main_v0 : S8x4096x64.Idx → EReal) = qA m c := by
  dsimp only [V, hostOps0]; after_results; rfl
theorem V_v1 (c : Dev nD) : (V m c main_v1 : S8x4096x64.Idx → EReal) = kA m c := by
  dsimp only [V, hostOps0]; after_results; rfl
theorem V_v2 (c : Dev nD) : (V m c main_v2 : S8x4096x64.Idx → EReal) = vA m c := by
  dsimp only [V, hostOps0]; after_results; rfl

/-! ## Where each window's block sits at a grid point -/

/-- The printed index maps over the 128 grid points: the query and output blocks are block (b, qi), the mask block is
    row block qi, the resident key and value windows are the whole arrays, and the body's dynamic offset is the batch b. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = win0_4.index t (1 : Fin 3) ∧ win0_3.index t (1 : Fin 2) = 0
    ∧ win0_4.index t (2 : Fin 3) = 0
    ∧ k0_off1 (grid0.coords t) (0 : Fin 3) = win0_4.index t (0 : Fin 3)
    ∧ k0_off1 (grid0.coords t) (1 : Fin 3) = 0 ∧ k0_off1 (grid0.coords t) (2 : Fin 3) = 0
    ∧ win0_4.index t (0 : Fin 3) < 8 ∧ win0_4.index t (1 : Fin 3) < 16 :=
  (by decide +kernel : ∀ t : Fin grid0.N, _)

/-- Every output block (b, qi) is some grid point's. -/
theorem idx_onto : ∀ (q0 : Fin 8) (q1 : Fin 16), ∃ t : Fin cfg0.N, win0_4.index t = ![q0.val, q1.val, 0] :=
  (by decide +kernel : ∀ (q0 : Fin 8) (q1 : Fin 16), ∃ t : Fin grid0.N, win0_4.index t = ![q0.val, q1.val, 0])

/-! ## The blocks, entry by entry -/

/-- An entry of the query block is the query array's entry at the block's place. -/
theorem iblk0_apply (c : Dev nD) (t : Fin cfg0.N) (x : S1x256x64.Idx) (k : S8x4096x64.Idx)
    (h0 : (k 0).val = win0_0.index t (0 : Fin 3) * 1 + 1 * (x 0).val)
    (h1 : (k 1).val = win0_0.index t (1 : Fin 3) * 256 + 1 * (x 1).val)
    (h2 : (k 2).val = win0_0.index t (2 : Fin 3) * 64 + 1 * (x 2).val) :
    (iblk m c 0 t : Vec Ideal S1x256x64 .bf16) x = qA m c k := by
  unfold iblk
  rw [View.read_apply]
  show V m c main_v0 _ = _
  refine (congrFun (V_v0 m c) _).trans ?_
  congr 1
  funext a
  apply Fin.ext
  match a with
  | ⟨0, _⟩ => exact h0.symm
  | ⟨1, _⟩ => exact h1.symm
  | ⟨2, _⟩ => exact h2.symm

/-- An entry of the resident key window (the whole array) is the key array's entry. -/
theorem iblk1_apply (c : Dev nD) (t : Fin cfg0.N) (x : S8x4096x64.Idx) (k : S8x4096x64.Idx)
    (h0 : (k 0).val = win0_1.index t (0 : Fin 3) * 8 + 1 * (x 0).val)
    (h1 : (k 1).val = win0_1.index t (1 : Fin 3) * 4096 + 1 * (x 1).val)
    (h2 : (k 2).val = win0_1.index t (2 : Fin 3) * 64 + 1 * (x 2).val) :
    (iblk m c 1 t : Vec Ideal S8x4096x64 .bf16) x = kA m c k := by
  unfold iblk
  rw [View.read_apply]
  show V m c main_v1 _ = _
  refine (congrFun (V_v1 m c) _).trans ?_
  congr 1
  funext a
  apply Fin.ext
  match a with
  | ⟨0, _⟩ => exact h0.symm
  | ⟨1, _⟩ => exact h1.symm
  | ⟨2, _⟩ => exact h2.symm

/-- An entry of the resident value window (the whole array) is the value array's entry. -/
theorem iblk2_apply (c : Dev nD) (t : Fin cfg0.N) (x : S8x4096x64.Idx) (k : S8x4096x64.Idx)
    (h0 : (k 0).val = win0_2.index t (0 : Fin 3) * 8 + 1 * (x 0).val)
    (h1 : (k 1).val = win0_2.index t (1 : Fin 3) * 4096 + 1 * (x 1).val)
    (h2 : (k 2).val = win0_2.index t (2 : Fin 3) * 64 + 1 * (x 2).val) :
    (iblk m c 2 t : Vec Ideal S8x4096x64 .bf16) x = vA m c k := by
  unfold iblk
  rw [View.read_apply]
  show V m c main_v2 _ = _
  refine (congrFun (V_v2 m c) _).trans ?_
  congr 1
  funext a
  apply Fin.ext
  match a with
  | ⟨0, _⟩ => exact h0.symm
  | ⟨1, _⟩ => exact h1.symm
  | ⟨2, _⟩ => exact h2.symm

/-- An entry of the mask block is the mask's entry at the block's place. -/
theorem iblk3_apply (c : Dev nD) (t : Fin cfg0.N) (x : S256x4096.Idx) (k : S4096x4096.Idx)
    (h0 : (k 0).val = win0_3.index t (0 : Fin 2) * 256 + 1 * (x 0).val)
    (h1 : (k 1).val = win0_3.index t (1 : Fin 2) * 4096 + 1 * (x 1).val) :
    (iblk m c 3 t : Vec Ideal S256x4096 .f32) x = mA m c k := by
  unfold iblk
  rw [View.read_apply]
  show V m c main_arg3 _ = _
  refine (congrFun (V_main_arg3 m c) _).trans ?_
  congr 1
  funext a
  apply Fin.ext
  match a with
  | ⟨0, _⟩ => exact h0.symm
  | ⟨1, _⟩ => exact h1.symm

/-! ## What a grid point writes -/

/-- Entry (r, d) of what the body computes at grid point `t`, whose block is (b, qi): the kernel's spelling of
    attention at batch b, query row 256·qi + r, feature d. -/
theorem pay_at (c : Dev nD) (t : Fin cfg0.N) (r : Fin 256) (d : Fin 64) (b : Fin 8) (q : Fin 4096)
    (hb : b.val = win0_4.index t (0 : Fin 3)) (hq : q.val = win0_4.index t (1 : Fin 3) * 256 + r.val) :
    k0_pay1 (F := Ideal) (iblk m c 0 t)
        (View.ld (iblk m c 1 t : Vec Ideal S8x4096x64 .bf16) (Rect.unit (s := S8x4096x64) (k0_off1 (grid0.coords t)) S1x4096x64.size (k0_off1_inb (grid0.coords t))))
        (View.ld (iblk m c 2 t : Vec Ideal S8x4096x64 .bf16) (Rect.unit (s := S8x4096x64) (k0_off1 (grid0.coords t)) S1x4096x64.size (k0_off1_inb (grid0.coords t))))
        (iblk m c 3 t) (ix3 0 r d)
      = Cert.Attn.outK (qA m c) (kA m c) (vA m c) (mA m c) b q d := by
  obtain ⟨e00, e01, e02, e10, e11, e12, e20, e21, e22, e30, e31, e42, ek0, ek1, ek2, hb8, hq16⟩ := idx_facts t
  have z1 : ((0 : Fin 1) : Nat) = 0 := rfl
  refine (Cert.KerPay.pay_apply (iblk m c 0 t) _ _ (iblk m c 3 t) r d).trans ?_
  unfold Cert.Attn.outK
  congr 1
  · funext j
    refine iblk0_apply m c t (ix3 0 r j) (ix3 b q j) ?_ ?_ ?_
    · show b.val = win0_0.index t (0 : Fin 3) * 1 + 1 * ((0 : Fin 1) : Nat); omega
    · show q.val = win0_0.index t (1 : Fin 3) * 256 + 1 * r.val; omega
    · show j.val = win0_0.index t (2 : Fin 3) * 64 + 1 * j.val; omega
  · funext k j
    refine iblk1_apply m c t _ (ix3 b k j) ?_ ?_ ?_
    · show b.val = win0_1.index t (0 : Fin 3) * 8 + 1 * (k0_off1 (grid0.coords t) (0 : Fin 3) + 1 * ((0 : Fin 1) : Nat)); omega
    · show k.val = win0_1.index t (1 : Fin 3) * 4096 + 1 * (k0_off1 (grid0.coords t) (1 : Fin 3) + 1 * k.val); omega
    · show j.val = win0_1.index t (2 : Fin 3) * 64 + 1 * (k0_off1 (grid0.coords t) (2 : Fin 3) + 1 * j.val); omega
  · funext k j
    refine iblk2_apply m c t _ (ix3 b k j) ?_ ?_ ?_
    · show b.val = win0_2.index t (0 : Fin 3) * 8 + 1 * (k0_off1 (grid0.coords t) (0 : Fin 3) + 1 * ((0 : Fin 1) : Nat)); omega
    · show k.val = win0_2.index t (1 : Fin 3) * 4096 + 1 * (k0_off1 (grid0.coords t) (1 : Fin 3) + 1 * k.val); omega
    · show j.val = win0_2.index t (2 : Fin 3) * 64 + 1 * (k0_off1 (grid0.coords t) (2 : Fin 3) + 1 * j.val); omega
  · funext k
    refine iblk3_apply m c t (ix2 r k) (ix2 q k) ?_ ?_
    · show q.val = win0_3.index t (0 : Fin 2) * 256 + 1 * r.val; omega
    · show k.val = win0_3.index t (1 : Fin 2) * 4096 + 1 * k.val; omega

/-- What grid point `t` writes back is block `t` of the result array `G`. -/
theorem flushed_eq (c : Dev nD) (t : Fin cfg0.N) :
    (dats m 0 c).flushed 4 t = ((cfg0.win 4).blk t).view.read (Elt Ideal) (G m c) := by
  rw [flushed4_A, out_eq]
  obtain ⟨e00, e01, e02, e10, e11, e12, e20, e21, e22, e30, e31, e42, ek0, ek1, ek2, hb8, hq16⟩ := idx_facts t
  funext y
  obtain ⟨y0, r, d, rfl⟩ : ∃ (y0 : Fin 1) (r : Fin 256) (d : Fin 64), y = ix3 y0 r d := ⟨y 0, y 1, y 2, eq_ix3 y⟩
  obtain rfl : y0 = 0 := Subsingleton.elim _ _
  refine (pay_at m c t r d ⟨win0_4.index t (0 : Fin 3), hb8⟩ ⟨win0_4.index t (1 : Fin 3) * 256 + r.val, by have := r.isLt; omega⟩ rfl rfl).trans ?_
  rw [View.read_apply]
  show Cert.Attn.outK (qA m c) (kA m c) (vA m c) (mA m c) _ _ _ = Cert.Attn.outK (qA m c) (kA m c) (vA m c) (mA m c) _ _ _
  have z1 : ((0 : Fin 1) : Nat) = 0 := rfl
  congr 1
  · apply Fin.ext
    show win0_4.index t (0 : Fin 3) = win0_4.index t (0 : Fin 3) * 1 + 1 * ((0 : Fin 1) : Nat); omega
  · apply Fin.ext
    show win0_4.index t (1 : Fin 3) * 256 + r.val = win0_4.index t (1 : Fin 3) * 256 + 1 * r.val; omega
  · apply Fin.ext
    show d.val = win0_4.index t (2 : Fin 3) * 64 + 1 * d.val; omega

/-! ## The blocks tile the array -/

/-- An index of the result array is in point `t`'s block iff each coordinate is in the block's range on its axis. -/
theorem mem_blk (t : Fin cfg0.N) (i : S8x4096x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v3).slice (win0_4.rect t)).set ↔ _
  rw [View.set_slice_whole, Rect.mem_set_unit]
  exact Iff.rfl

/-- Every index of the result array is in the block of the grid point (⌊row / 256⌋, batch). -/
theorem cover (i : S8x4096x64.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- So the result array ends at `G`. -/
theorem final (c : Dev nD) : (dats m 0 c).arrAt 4 cfg0.N = G m c :=
  (dats m 0 c).arrAt_eq_of_cover 4 (G m c) (fun t _ => flushed_eq m c t) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KerBlocks

end
-- ==== Proof.lean ====
/-
  Masked, renormalised attention: a Pallas kernel against its jnp reference, over the extended reals.

  For every batch b and query row r, with s_k the score of key k scaled by 1/8, M = max_k s_k, e_k = exp (s_k − M)
  and m_k the mask entry, the kernel writes  (∑_k e_k m_k v_k) / (∑_k e_k m_k)  while the reference computes
  ∑_k ((e_k / Z) m_k / L) v_k  with  Z = ∑_k e_k  and  L = ∑_k (e_k / Z) m_k.  On real inputs Z is a positive real
  and cancels; the two agree wherever L ≠ 0, which the precondition states (at L = 0 the reference's own quotient is
  not a number). The kernel's array is read block by block (`KerBlocks`, over the body's arithmetic `KerPay`), the
  reference's operation by operation (`RefRead`), the precondition in `PreRead`, and the law joining the two
  spellings is `AttnLaw`. The three frames are the generated ones; the idealization rewrote nothing.
-/
import proofs.«403943_j28278064677159_3_alg».proof.Defs
import proofs.«403943_j28278064677159_3_alg».proof.Proof.Gen.Kernel
import proofs.«403943_j28278064677159_3_alg».proof.Proof.Gen.Kernel.Skeleton
import proofs.«403943_j28278064677159_3_alg».proof.Proof.Gen.Kernel.Launch
import proofs.«403943_j28278064677159_3_alg».proof.Proof.Gen.Kernel.Points
import proofs.«403943_j28278064677159_3_alg».proof.Proof.Gen.Kernel.Frame
import proofs.«403943_j28278064677159_3_alg».proof.Proof.Gen.KernelIdeal
import proofs.«403943_j28278064677159_3_alg».proof.Proof.Gen.KernelIdeal.Skeleton
import proofs.«403943_j28278064677159_3_alg».proof.Proof.Gen.KernelIdeal.Launch
import proofs.«403943_j28278064677159_3_alg».proof.Proof.Gen.KernelIdeal.Points
import proofs.«403943_j28278064677159_3_alg».proof.Proof.Gen.KernelIdeal.Frame
import proofs.«403943_j28278064677159_3_alg».proof.Proof.Gen.ReferenceIdeal
import proofs.«403943_j28278064677159_3_alg».proof.Proof.Gen.Pre_finite_inputs
import proofs.«403943_j28278064677159_3_alg».proof.Proof.Gen.KernelIdeal.Value
import proofs.«403943_j28278064677159_3_alg».proof.Proof.Gen.ReferenceIdeal.Run
import proofs.«403943_j28278064677159_3_alg».proof.Proof.Gen.ReferenceIdeal.Read
import proofs.«403943_j28278064677159_3_alg».proof.Proof.Attn
import proofs.«403943_j28278064677159_3_alg».proof.Proof.AttnLaw
import proofs.«403943_j28278064677159_3_alg».proof.Proof.RefRead
import proofs.«403943_j28278064677159_3_alg».proof.Proof.PreRead
import proofs.«403943_j28278064677159_3_alg».proof.Proof.KerBlocks
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the array whose entry (b, r, d) is the kernel's spelling `Attn.outK` of the arguments:
    the kernel by its blocks, the reference because its spelling `Attn.outR` is the same number wherever the
    precondition holds. -/
theorem algebraic : Cert.algebraic_KernelIdeal_ReferenceIdeal := by
  intro m ρ m' ρ' hpre hagree
  refine ⟨fun c => Cert.KerBlocks.G m c, Cert.KerBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  obtain ⟨hQ, hK, hV, hM, hden⟩ := Cert.PreRead.of_pre _ _ _ _ (hpre c)
  funext i
  obtain ⟨b, r, d, rfl⟩ : ∃ (b : Fin 8) (r : Fin 4096) (d : Fin 64), i = ix3 b r d := ⟨i 0, i 1, i 2, eq_ix3 i⟩
  rw [Cert.RefRead.out_apply]
  exact (Cert.Attn.outK_eq_outR _ _ _ _ hQ hK hV hM hden b r d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
